-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x4096x128 : Shape := ⟨3, ![16, 4096, 128]⟩
abbrev S16x4096 : Shape := ⟨2, ![16, 4096]⟩
abbrev S_ : Shape := ⟨0, ![]⟩

class Facts : Prop where
  bcast_S_S16x4096x128 : S_.BroadcastsInDim S16x4096x128 (![] : Fin 0 → Fin S16x4096x128.rank)
  reducesTo_S16x4096x128_S_d0_1_2 : S16x4096x128.ReducesTo [0, 1, 2] S_
  h_S_ : 0 < S_.numel

variable [Facts]

def fn {F : FTy → Type} [FloatOps F] (main_arg0 : FVec F S16x4096x128 .f32) (main_arg1 : IVec S16x4096 1) : IVec S_ 1 :=
  let main_v0 : FVec F S16x4096x128 .f32 := Host.absf main_arg0
  let main_cst : FVec F S_ .f32 := constant S_ .f32 0x7F800000#32
  let main_v1 : FVec F S16x4096x128 .f32 := broadcastInDim S16x4096x128 ![] bcast_S_S16x4096x128 main_cst
  let main_v2 : IVec S16x4096x128 1 := cmpf .olt main_v0 main_v1
  let main_c : IVec S_ 1 := constantI S_ 1 1#1
  let main_v3 : IVec S_ 1 := (fun x v => Host.reduce IntOp.andi x v reducesTo_S16x4096x128_S_d0_1_2 h_S_) main_v2 main_c
  main_v3
-- ==== Kernel.lean ====
abbrev S16x4096x128 : Shape := ⟨3, ![16, 4096, 128]⟩
abbrev S16x4096 : Shape := ⟨2, ![16, 4096]⟩
abbrev S16x1x4096 : Shape := ⟨3, ![16, 1, 4096]⟩
abbrev S16x1x128 : Shape := ⟨3, ![16, 1, 128]⟩
abbrev S16x128 : Shape := ⟨2, ![16, 128]⟩
abbrev S1x4096x128 : Shape := ⟨3, ![1, 4096, 128]⟩
abbrev S1x1x4096 : Shape := ⟨3, ![1, 1, 4096]⟩
abbrev S1x1x128 : Shape := ⟨3, ![1, 1, 128]⟩
abbrev S4096 : Shape := ⟨1, ![4096]⟩
abbrev S1x4096 : Shape := ⟨2, ![1, 4096]⟩
abbrev S4096x128 : Shape := ⟨2, ![4096, 128]⟩
abbrev S1x128 : Shape := ⟨2, ![1, 128]⟩
abbrev S1 : Shape := ⟨1, ![1]⟩
abbrev S1x1 : Shape := ⟨2, ![1, 1]⟩

abbrev nBuf : Space → Nat
  | .hbm => 6
  | .vmem => 6
  | .smem => 0
  | _ => 0

abbrev bufTy : (tb : Table) → Fin (tcTables nBuf tb) → BufTy
  | .hbm, ⟨0, _⟩ => ⟨S16x4096x128, .f32⟩
  | .hbm, ⟨1, _⟩ => ⟨S16x4096, .i1⟩
  | .hbm, ⟨2, _⟩ => ⟨S16x4096, .f32⟩
  | .hbm, ⟨3, _⟩ => ⟨S16x1x4096, .f32⟩
  | .hbm, ⟨4, _⟩ => ⟨S16x1x128, .f32⟩
  | .hbm, ⟨5, _⟩ => ⟨S16x128, .f32⟩
  | .local _ .vmem, ⟨0, _⟩ => ⟨S1x4096x128, .f32⟩
  | .local _ .vmem, ⟨1, _⟩ => ⟨S1x4096x128, .f32⟩
  | .local _ .vmem, ⟨2, _⟩ => ⟨S1x1x4096, .f32⟩
  | .local _ .vmem, ⟨3, _⟩ => ⟨S1x1x4096, .f32⟩
  | .local _ .vmem, ⟨4, _⟩ => ⟨S1x1x128, .f32⟩
  | .local _ .vmem, ⟨5, _⟩ => ⟨S1x1x128, .f32⟩
  | _, _ => ⟨S16x4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_v2 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S16x4096_S16x1x4096 : S16x4096.ShapeCasts S16x1x4096
  shapeCasts_S16x1x128_S16x128 : S16x1x128.ShapeCasts S16x128
  inb_S1x1x4096_S1x1x4096_0_0_0 : ∀ a, (![0, 0, 0] : Fin 3 → Nat) a + S1x1x4096.size a ≤ S1x1x4096.size a
  h_S1x1x4096 : 0 < S1x1x4096.numel
  shapeCasts_S1x1x4096_S4096 : S1x1x4096.ShapeCasts S4096
  shapeCasts_S4096_S1x4096 : S4096.ShapeCasts S1x4096
  inb_S1x4096x128_S1x4096x128_0_0_0 : ∀ a, (![0, 0, 0] : Fin 3 → Nat) a + S1x4096x128.size a ≤ S1x4096x128.size a
  h_S1x4096x128 : 0 < S1x4096x128.numel
  shapeCasts_S1x4096x128_S4096x128 : S1x4096x128.ShapeCasts S4096x128
  reduces_S1x4096_S1 : S1x4096.Reduces [1] S1
  shapeCasts_S1_S1x1 : S1.ShapeCasts S1x1
  inpos_S1x1_p0_0 : ∀ a, (![0, 0] : Fin 2 → Nat) a < S1x1.size a
  inb_S1x1x128_S1x1x128_0_0_0 : ∀ a, (![0, 0, 0] : Fin 3 → Nat) a + S1x1x128.size a ≤ S1x1x128.size a
  h_S1x1x128 : 0 < S1x1x128.numel
  shapeCasts_S1x1x128_S1x128 : S1x1x128.ShapeCasts S1x128
  shapeCasts_S1x128_S1x1x128 : S1x128.ShapeCasts S1x1x128
  dot_S1x4096_S4096x128_S1x128_1_0_0_1_n_n_wf : DotDims.WF S1x4096 S4096x128 S1x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x128.size a ≤ S16x4096x128.size a
  hwx0_0 : ∀ i : grid0.Coords, EltTy.bits .f32 = 32 ∨ (Rect.block (s := S16x4096x128) S1x4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x4096.size a ≤ S16x1x4096.size a
  hwx0_1 : ∀ i : grid0.Coords, EltTy.bits .f32 = 32 ∨ (Rect.block (s := S16x1x4096) S1x1x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x128.size a ≤ S16x1x128.size a
  hwx0_2 : ∀ i : grid0.Coords, EltTy.bits .f32 = 32 ∨ (Rect.block (s := S16x1x128) S1x1x128.size (cc0_transform_2 i) (hinb0_2 i)).WholeWords (EltTy.packing .f32)

variable [Facts₀]

def dot_S1x4096_S4096x128_S1x128_1_0_0_1_n_n : DotDims S1x4096 S4096x128 S1x128 where
  lhsContracting := [1]
  rhsContracting := [0]
  lhsNonContracting := [0]
  rhsNonContracting := [1]
  lhsBatch := []
  rhsBatch := []
  wf := dot_S1x4096_S4096x128_S1x128_1_0_0_1_n_n_wf

abbrev win0_0 : Pipeline.Window sig grid0 :=
  Pipeline.Window.ofSpec (Memref.whole main_arg0) S1x4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v1) S1x1x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v2) S1x1x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x4096x128 : Shape := ⟨3, ![16, 4096, 128]⟩
abbrev S16x4096 : Shape := ⟨2, ![16, 4096]⟩
abbrev S16x4096x1 : Shape := ⟨3, ![16, 4096, 1]⟩
abbrev S_ : Shape := ⟨0, ![]⟩
abbrev S16x128 : Shape := ⟨2, ![16, 128]⟩
abbrev S16x1 : Shape := ⟨2, ![16, 1]⟩

abbrev nBuf : Space → Nat
  | .hbm => 12
  | .vmem => 0
  | .smem => 0
  | _ => 0

abbrev bufTy : (tb : Table) → Fin (tcTables nBuf tb) → BufTy
  | .hbm, ⟨0, _⟩ => ⟨S16x4096x128, .f32⟩
  | .hbm, ⟨1, _⟩ => ⟨S16x4096, .i1⟩
  | .hbm, ⟨2, _⟩ => ⟨S16x4096, .f32⟩
  | .hbm, ⟨3, _⟩ => ⟨S16x4096x1, .f32⟩
  | .hbm, ⟨4, _⟩ => ⟨S16x4096x128, .f32⟩
  | .hbm, ⟨5, _⟩ => ⟨S16x4096x128, .f32⟩
  | .hbm, ⟨6, _⟩ => ⟨S_, .f32⟩
  | .hbm, ⟨7, _⟩ => ⟨S16x128, .f32⟩
  | .hbm, ⟨8, _⟩ => ⟨S_, .f32⟩
  | .hbm, ⟨9, _⟩ => ⟨S16x1, .f32⟩
  | .hbm, ⟨10, _⟩ => ⟨S16x128, .f32⟩
  | .hbm, ⟨11, _⟩ => ⟨S16x128, .f32⟩
  | _, _ => ⟨S16x4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]

class Facts₀ : Prop where
  bcast_S16x4096_S16x4096x1_0_1 : S16x4096.BroadcastsInDim S16x4096x1 (![0, 1] : Fin 2 → Fin S16x4096x1.rank)
  bcast_S16x4096x1_S16x4096x128_0_1_2 : S16x4096x1.BroadcastsInDim S16x4096x128 (![0, 1, 2] : Fin 3 → Fin S16x4096x128.rank)
  reducesTo_S16x4096x128_S16x128_d1 : S16x4096x128.ReducesTo [1] S16x128
  h_S_ : 0 < S_.numel
  reducesTo_S16x4096x1_S16x1_d1 : S16x4096x1.ReducesTo [1] S16x1
  bcast_S16x1_S16x128_0_1 : S16x1.BroadcastsInDim S16x128 (![0, 1] : Fin 2 → Fin S16x128.rank)

variable [Facts₀]

class Facts : Prop extends Facts₀ where

variable [Facts]
-- ==== Proof.MaskedMean.lean ====
/-
  The masked mean over the atom axis, as one function of the two argument arrays.

  For a batch row `b` and a feature `d` the result is the quotient of two sums over the 4096 atoms `l`:
  the weighted sum `∑ l, w (b, l) · x (b, l, d)` over the weight total `∑ l, w (b, l)`, where the weight
  `w (b, l)` is the mask bit read as the number 0 or 1. Everything is stated on the extended reals with the
  quotient `Ideal.div` of the ideal instance, so a row whose mask is empty needs no separate treatment:
  both programs form the same quotient of the same two sums there.
-/
import Idealize.ShloMosaic.PureOps.Ideal
import Idealize.ShloMosaic.Lib.ValueIdx

noncomputable section

namespace Cert.MaskedMean

open Idealize.ShloMosaic Idealize.ShloMosaic.ValueIdx

/-- The values: 16 batch rows of 4096 atoms of 128 features. -/
abbrev Sx : Shape := ⟨3, ![16, 4096, 128]⟩
/-- The mask: one bit per atom of each batch row. -/
abbrev Sw : Shape := ⟨2, ![16, 4096]⟩
/-- The result: one mean per batch row and feature. -/
abbrev So : Shape := ⟨2, ![16, 128]⟩

/-- The mask bits as weights: the bit read as an unsigned integer, 0 or 1, exactly. -/
def weights (bits : Sw.Idx → BitVec 1) : Sw.Idx → EReal :=
  fun j => FloatOps.uitofp (F := Ideal) .f32 (bits j)

/-- The masked mean of batch row `b` at feature `d`: the weighted sum of the row's atoms over the weight total. -/
def meanAt (x : Sx.Idx → EReal) (w : Sw.Idx → EReal) (b : Fin 16) (d : Fin 128) : EReal :=
  Ideal.div (∑ l : Fin 4096, w (ix2 b l) * x (ix3 b l d)) (∑ l : Fin 4096, w (ix2 b l))

/-- The whole result array. -/
def mean (x : Sx.Idx → EReal) (w : Sw.Idx → EReal) : So.Idx → EReal :=
  fun i => meanAt x w (i 0) (i 1)

end Cert.MaskedMean

end
-- ==== Proof.RefValue.lean ====
/-
  The reference computes the masked mean.

  The reference multiplies the values by the mask weights broadcast along the feature axis, sums the products
  over the atom axis, sums the weights over the atom axis, and divides. Read at an index `(b, d)` this is
  `(0 + ∑ l, x (b, l, d) · w (b, l)) / (0 + ∑ l, w (b, l))`: the two initial values are the zero word, and the
  product's factors are swapped by commutativity of the product on the extended reals. No other law is used.
-/
import proofs.«169712_g33956011442265_cont_8to1_b_969_8_alg».proof.Proof.Gen.ReferenceIdeal.Read
import proofs.«169712_g33956011442265_cont_8to1_b_969_8_alg».proof.Proof.MaskedMean
import Idealize.ShloMosaic.PureOps.Ideal.Laws

noncomputable section

namespace Cert.ReferenceIdeal.RefValue

open Cert.ReferenceIdeal Cert.ReferenceIdeal.Read Cert.MaskedMean
open Idealize.ShloMosaic Idealize.ShloMosaic.ValueIdx

/-- The value index the atom sum reads at atom `k` of result index `i`: row `i 0`, atom `k`, feature `i 1`. -/
theorem value_idx (i : S16x128.Idx) (k : Fin 4096) : idx_main_v4 i k = ix3 (i 0) k (i 1) :=
  funext fun a => Fin.ext (by match a with | ⟨0, _⟩ => rfl | ⟨1, _⟩ => rfl | ⟨2, _⟩ => rfl)

/-- The mask index under the product at that value index: row `i 0`, atom `k` (the feature axis is the broadcast one). -/
theorem weight_idx_prod (i : S16x128.Idx) (k : Fin 4096) :
    idx_main_v1 (idx_main_v2 (idx_main_v4 i k)) = ix2 (i 0) k :=
  funext fun a => Fin.ext (by match a with | ⟨0, _⟩ => rfl | ⟨1, _⟩ => rfl)

/-- The mask index the weight total reads at atom `k`: again row `i 0`, atom `k`. -/
theorem weight_idx_count (i : S16x128.Idx) (k : Fin 4096) :
    idx_main_v1 (idx_main_v5 (idx_main_v6 i) k) = ix2 (i 0) k :=
  funext fun a => Fin.ext (by match a with | ⟨0, _⟩ => rfl | ⟨1, _⟩ => rfl)

/-- The reference's result, at the ideal instance, is the masked mean of the values under the mask's weights. -/
theorem result_eq (x : (⟨S16x4096x128, .f32⟩ : BufTy).Contents (Elt Ideal)) (bits : (⟨S16x4096, .i1⟩ : BufTy).Contents (Elt Ideal)) :
    val_main_v7 (F := Ideal) x bits = mean x (weights bits) := by
  funext i
  rw [val_main_v7_apply, val_main_v4_apply, val_main_v6_apply, val_main_v5_apply]
  simp only [val_main_v3_apply, val_main_v2_apply, val_main_v1_apply, val_main_v0_apply, val_main_cst_apply,
    val_main_cst_0_apply]
  simp only [weight_idx_prod, weight_idx_count, value_idx, Ideal.hostDivf_def, Ideal.mulf_def,
    Ideal.ofBits_def, Ideal.ofBits_zero_f32, zero_add]
  unfold mean meanAt weights
  congr 1
  exact Finset.sum_congr rfl fun k _ => mul_comm (x (ix3 (i 0) k (i 1)) : EReal) _

end Cert.ReferenceIdeal.RefValue

end
-- ==== Proof.Body.lean ====
/-
  What the kernel body stores, read at an index.

  At one grid point the body holds the point's weights as a block of shape [1, 1, 4096] and the point's values as a
  block of shape [1, 4096, 128]. It views the weights as a [1, 4096] row and the values as a [4096, 128] matrix,
  forms the row-by-matrix product into a zero accumulator, sums the row, and divides the product by the sum
  broadcast along the features. At feature `d` the stored value is therefore
  `(∑ l, w (0, 0, l) · x (0, l, d)) / (∑ l, w (0, 0, l))`: at the ideal instance the product into a zero
  accumulator is the plain sum over the contracted axis, and the lane reduction is the plain sum over the row.
-/
import proofs.«169712_g33956011442265_cont_8to1_b_969_8_alg».proof.Proof.Gen.KernelIdeal.Skeleton
import Idealize.ShloMosaic.Lib.Pipeline.Value
import Idealize.ShloMosaic.Lib.ValueLayout
import Idealize.ShloMosaic.Lib.ValueIdx
import Idealize.ShloMosaic.PureOps.Ideal.Laws

noncomputable section

namespace Cert.KernelIdeal.Body

open Cert.KernelIdeal Cert.KernelIdeal.Gen Idealize.ShloMosaic Idealize.ShloMosaic.ValueIdx

/-- The product's dimension numbers: the row's axis 1 is contracted with the matrix's axis 0. -/
abbrev D : DotDims S1x4096 S4096x128 S1x128 := dot_S1x4096_S4096x128_S1x128_1_0_0_1_n_n

/-- The row operand is read at its only row, -/
theorem lhs_0 (j : S1x128.Idx) (k : D.contr.Idx) : (D.lhsIdx j k 0 : ℕ) = 0 :=
  Nat.lt_one_iff.mp (D.lhsIdx j k 0).isLt
/-- and at the contraction position. -/
theorem lhs_1 (j : S1x128.Idx) (k : D.contr.Idx) : (D.lhsIdx j k 1 : ℕ) = k ⟨0, by decide⟩ := by
  simp [DotDims.lhsIdx, D, dot_S1x4096_S4096x128_S1x128_1_0_0_1_n_n]; rfl
/-- The matrix operand is read at the contraction position, -/
theorem rhs_0 (j : S1x128.Idx) (k : D.contr.Idx) : (D.rhsIdx j k 0 : ℕ) = k ⟨0, by decide⟩ := by
  simp [DotDims.rhsIdx, D, dot_S1x4096_S4096x128_S1x128_1_0_0_1_n_n]; rfl
/-- and at the result's column. -/
theorem rhs_1 (j : S1x128.Idx) (k : D.contr.Idx) : (D.rhsIdx j k 1 : ℕ) = j 1 := by
  simp [DotDims.rhsIdx, D, dot_S1x4096_S4096x128_S1x128_1_0_0_1_n_n]; rfl

/-- The row-by-matrix product into a zero accumulator, at column `d`, is the sum over the 4096 contracted positions. -/
theorem product_apply (row : FVec Ideal S1x4096 .f32) (mat : FVec Ideal S4096x128 .f32) (u : Fin 1) (d : Fin 128) :
    matmul D none row mat (constant (F := Ideal) S1x128 .f32 0x00000000#32) (ix2 u d)
      = ∑ l : Fin 4096, row (ix2 0 l) * mat (ix2 l d) := by
  refine (Ideal.matmul_constant_zero_apply D none row mat (ix2 u d)).trans ?_
  rw [← Equiv.sum_comp (contrEquiv1 D 4096 rfl rfl).symm]
  refine Finset.sum_congr rfl fun l _ => ?_
  congr 2
  · apply Shape.idx_ext₂
    · exact lhs_0 _ _
    · exact (lhs_1 _ _).trans (contrEquiv1_symm_val D 4096 rfl rfl l)
  · apply Shape.idx_ext₂
    · exact (rhs_0 _ _).trans (contrEquiv1_symm_val D 4096 rfl rfl l)
    · exact rhs_1 _ _

/-- The weights block viewed as a row: entry `(u, l)` of the row is entry `(0, 0, l)` of the block. -/
theorem row_apply (w : FVec Ideal S1x1x4096 .f32) (h1 : S1x1x4096.ShapeCasts S4096) (h2 : S4096.ShapeCasts S1x4096)
    (u : Fin 1) (l : Fin 4096) :
    shapeCast S1x4096 (shapeCast S4096 w h1) h2 (ix2 u l) = w (ix3 0 0 l) :=
  (shapeCast_a_1a_apply _ h2 u l).trans
    (shapeCast_apply w h1 (ix1 l) (ix3 0 0 l) (by
      rw [Shape.rowMajor_val_three, Shape.rowMajor_val_one]
      show (0 * 1 + 0) * 4096 + l.val = l.val
      omega))

/-- The values block viewed as a matrix: entry `(l, d)` of the matrix is entry `(0, l, d)` of the block. -/
theorem mat_apply (x : FVec Ideal S1x4096x128 .f32) (h : S1x4096x128.ShapeCasts S4096x128) (l : Fin 4096) (d : Fin 128) :
    shapeCast S4096x128 x h (ix2 l d) = x (ix3 0 l d) :=
  shapeCast_1ab_ab_apply x h l d

/-- The lane sum of a row, at the ideal instance, is the sum of its 4096 entries. -/
theorem rowsum_apply (row : FVec Ideal S1x4096 .f32) (h : S1x4096.Reduces [1] S1) (hφ : FKind.Formats .f32)
    (hacc : (0x00000000#32 : BitVec (FTy.bits .f32)) = FKind.add.neutral .f32 hφ) (u : Fin 1) :
    multiReduction .add [1] S1 row 0x00000000#32 h hφ hacc (ix1 u) = ∑ l : Fin 4096, row (ix2 0 l) := by
  refine (Ideal.multiReduction_add_single row 0x00000000#32 h hφ hacc (ix1 u)).trans ?_
  refine Finset.sum_congr rfl fun l _ => congrArg row ?_
  apply Shape.idx_ext₂
  · exact Nat.lt_one_iff.mp (h.lift (ix1 u) l 0).isLt
  · rfl

/-- THE BODY'S STORED VALUE at feature `d`: the weighted sum of the point's values over the point's weight total. -/
theorem stored_apply (w : Vec Ideal S1x1x4096 .f32) (x : Vec Ideal S1x4096x128 .f32) (u u' : Fin 1) (d : Fin 128) :
    k0_pay1 (F := Ideal) w x (ix3 u u' d)
      = Ideal.div (∑ l : Fin 4096, w (ix3 0 0 l) * x (ix3 0 l d)) (∑ l : Fin 4096, w (ix3 0 0 l)) := by
  unfold k0_pay1
  refine (shapeCast_ab_1ab_apply _ _ u u' d).trans ?_
  refine (divf_apply _ _ (ix2 u' d)).trans ?_
  refine congrArg₂ Ideal.div ?_ ?_
  · refine (product_apply _ _ u' d).trans (Finset.sum_congr rfl fun l _ => ?_)
    exact congrArg₂ (· * ·) (row_apply w _ _ 0 l) (mat_apply x _ l d)
  · refine (shapeCast_apply _ _ _ (ix1 0) ?_).trans ?_
    · rw [Shape.rowMajor_val_one, Shape.rowMajor_val_two]; rfl
    · refine (rowsum_apply _ _ _ _ 0).trans (Finset.sum_congr rfl fun l _ => ?_)
      exact row_apply w _ _ 0 l

end Cert.KernelIdeal.Body

end
-- ==== Proof.RegionValue.lean ====
/-
  The kernel's run, read as values: after the run the result array holds the masked mean.

  The program converts the mask to weights and views them as a [16, 1, 4096] array (host operations before the
  region), runs the body once per batch row, and views the region's [16, 1, 128] output as [16, 128] (one host
  operation after the region). Grid point `t` is batch row `t`: every window's block index at `t` is `(t, 0, 0)`,
  so the point's values block is row `t` of the values, its weights block is row `t` of the weights, and the block
  it writes back is row `t` of the output. The sixteen output blocks tile the output array, so after the run the
  array is the masked mean at every index, and the final view only renames `(b, 0, d)` to `(b, d)`.
-/
import proofs.«169712_g33956011442265_cont_8to1_b_969_8_alg».proof.Proof.Gen.KernelIdeal.Frame
import proofs.«169712_g33956011442265_cont_8to1_b_969_8_alg».proof.Proof.Body
import proofs.«169712_g33956011442265_cont_8to1_b_969_8_alg».proof.Proof.MaskedMean
import Idealize.ShloMosaic.Lib.Pipeline.Value
import Idealize.ShloMosaic.Lib.StableHlo.Run
import Idealize.ShloMosaic.Lib.ValueIdx

set_option maxRecDepth 16384

noncomputable section

namespace Cert.KernelIdeal.RegionValue

open Cert.KernelIdeal Cert.KernelIdeal.Gen Cert.MaskedMean
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## Grid points are batch rows -/

/-- The batch row of a grid point. -/
def row (t : Fin cfg0.N) : Fin 16 := t.cast N_0

/-- Every window's block index at point `t` is `(t, 0, 0)` (decided over the sixteen points). -/
theorem block_index : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0 :=
  (by decide +kernel : ∀ t : Fin grid0.N, _)

/-! ## The arrays the region finds -/

/-- The weights array the region finds: entry `(b, u, l)` is the weight of atom `l` of batch row `b`. -/
theorem weights_apply (c : Dev nD) (b : Fin 16) (u : Fin 1) (l : Fin 4096) :
    (V m c main_call0_v1 : S16x1x4096.Idx → EReal) (ix3 b u l)
      = weights (m ((c : Thread nD τ).loc main_arg1)) (ix2 b l) := by
  have e : (V m c main_call0_v1 : S16x1x4096.Idx → EReal)
      = shapeCast S16x1x4096 (uitofp (F := Ideal) .f32 (m ((c : Thread nD τ).loc main_arg1))) shapeCasts_S16x4096_S16x1x4096 := by
    show StableHlo.after hostOps0 (fun b => m (c, b)) (Proc.devRef .tc main_call0_v1) = _
    after_results; rfl
  rw [e]
  refine (shapeCast_apply _ _ (ix3 b u l) (ix2 b l) ?_).trans rfl
  rw [Shape.rowMajor_val_two, Shape.rowMajor_val_three]
  show b.val * 4096 + l.val = (b.val * 1 + u.val) * 4096 + l.val
  have hu : u.val = 0 := by omega
  rw [hu]; omega

/-- Point `t`'s values block is batch row `t` of the values argument. -/
theorem values_block (c : Dev nD) (t : Fin cfg0.N) (l : Fin 4096) (d : Fin 128) :
    iblk m c 0 t (ix3 0 l d) = m ((c : Thread nD τ).loc main_arg0) (ix3 (row t) l d) := by
  show V m c main_arg0 (((cfg0.win 0).blk t).view.emb (ix3 0 l d)) = _
  rw [V_main_arg0]
  refine congrArg _ (funext fun a => Fin.ext ?_)
  obtain ⟨e0, e1, e2, -⟩ := block_index t
  match a with
  | ⟨0, _⟩ => show win0_0.index t (0 : Fin 3) * 1 + 1 * ((0 : Fin 1) : ℕ) = t.val; omega
  | ⟨1, _⟩ => show win0_0.index t (1 : Fin 3) * 4096 + 1 * l.val = l.val; omega
  | ⟨2, _⟩ => show win0_0.index t (2 : Fin 3) * 128 + 1 * d.val = d.val; omega

/-- Point `t`'s weights block is batch row `t` of the weights. -/
theorem weights_block (c : Dev nD) (t : Fin cfg0.N) (l : Fin 4096) :
    iblk m c 1 t (ix3 0 0 l) = weights (m ((c : Thread nD τ).loc main_arg1)) (ix2 (row t) l) := by
  show V m c main_call0_v1 (((cfg0.win 1).blk t).view.emb (ix3 0 0 l)) = _
  refine Eq.trans (congrArg _ (funext fun a => Fin.ext ?_)) (weights_apply m c (row t) 0 l)
  obtain ⟨-, -, -, e0, e1, e2, -⟩ := block_index t
  match a with
  | ⟨0, _⟩ => show win0_1.index t (0 : Fin 3) * 1 + 1 * ((0 : Fin 1) : ℕ) = t.val; omega
  | ⟨1, _⟩ => show win0_1.index t (1 : Fin 3) * 1 + 1 * ((0 : Fin 1) : ℕ) = 0; omega
  | ⟨2, _⟩ => show win0_1.index t (2 : Fin 3) * 4096 + 1 * l.val = l.val; omega

/-! ## What a point writes back -/

/-- The region's output array as one function of the arguments: the masked mean, with a unit middle axis. -/
def regionOut (c : Dev nD) : S16x1x128.Idx → EReal :=
  fun i => meanAt (m ((c : Thread nD τ).loc main_arg0)) (weights (m ((c : Thread nD τ).loc main_arg1))) (i 0) (i 2)

/-- The body's stored block, over blocks that are batch row `b` of the values and of the weights, is the masked
    mean of that row at every feature. -/
theorem stored_eq (w : Vec Ideal S1x1x4096 .f32) (x : Vec Ideal S1x4096x128 .f32)
    (X : Sx.Idx → EReal) (Wt : Sw.Idx → EReal) (b : Fin 16)
    (hw : ∀ l : Fin 4096, w (ix3 0 0 l) = Wt (ix2 b l))
    (hx : ∀ (l : Fin 4096) (d : Fin 128), x (ix3 0 l d) = X (ix3 b l d)) (j : S1x1x128.Idx) :
    k0_pay1 (F := Ideal) w x j = meanAt X Wt b (j 2) := by
  obtain ⟨u, u', d, rfl⟩ : ∃ (u : Fin 1) (u' : Fin 1) (d : Fin 128), j = ix3 u u' d := ⟨j 0, j 1, j 2, eq_ix3 j⟩
  refine (Body.stored_apply w x u u' d).trans ?_
  exact congrArg₂ Ideal.div (Finset.sum_congr rfl fun l _ => congrArg₂ (· * ·) (hw l) (hx l d))
    (Finset.sum_congr rfl fun l _ => hw l)

theorem hz : (![0, 0, 0] : Fin 3 → Nat) = fun _ => 0 := funext fun a => by fin_cases a <;> rfl

/-- WHAT POINT `t` WRITES BACK is block `t` of the masked mean. -/
theorem flushed_eq (c : Dev nD) (t : Fin cfg0.N) :
    (dats m 0 c).flushed 2 t = ((cfg0.win 2).blk t).view.read (Elt Ideal) (regionOut m c) := by
  show (cfg0.win 2).cut (grid0.coords t) ((dats m 0 c).after 2 t) = _
  rw [after0_2]
  unfold out0_2
  rw [View.canon_unit_zero hz]
  simp only [View.ld_unit_zero (S := S1x1x4096) hz, View.ld_unit_zero (S := S1x4096x128) hz]
  funext j
  rw [View.read_apply]
  show k0_pay1 (F := Ideal) (iblk m c 1 t) (iblk m c 0 t) ((cfg0.win 2).xinj (grid0.coords t) j) = _
  refine (stored_eq (iblk m c 1 t) (iblk m c 0 t) (m ((c : Thread nD τ).loc main_arg0))
    (weights (m ((c : Thread nD τ).loc main_arg1))) (row t) (weights_block m c t) (values_block m c t)
    ((cfg0.win 2).xinj (grid0.coords t) j)).trans ?_
  obtain ⟨-, -, -, -, -, -, e0, e1, e2⟩ := block_index t
  have hj0 : (j 0).val < 1 := ((cfg0.win 2).xinj (grid0.coords t) j 0).isLt
  have h0 : (((cfg0.win 2).blk t).view.emb j) 0 = row t :=
    Fin.ext (by show win0_2.index t (0 : Fin 3) * 1 + 1 * (j 0).val = t.val; omega)
  have h2 : (((cfg0.win 2).blk t).view.emb j) 2 = (cfg0.win 2).xinj (grid0.coords t) j 2 :=
    Fin.ext (by show win0_2.index t (2 : Fin 3) * 128 + 1 * (j 2).val = (j 2).val; omega)
  unfold regionOut
  rw [h0, h2]
  exact (cast_eq _ _).symm

/-! ## The output array after the run -/

/-- An index of the output array is in point `t`'s block iff each coordinate is in the block's range on its axis. -/
theorem mem_blk (t : Fin cfg0.N) (i : S16x1x128.Idx) :
    i ∈ ((cfg0.win 2).blk t).view.set ↔ ∀ a : Fin 3, win0_2.index t a * S1x1x128.size a ≤ (i a).val
      ∧ (i a).val < win0_2.index t a * S1x1x128.size a + S1x1x128.size a := by
  show i ∈ ((View.whole main_call0_v2).slice (win0_2.rect t)).set ↔ _
  rw [View.set_slice_whole, Rect.mem_set_unit]
  exact Iff.rfl

/-- Every index of the output array lies in the block of the point that is its batch row. -/
theorem cover (i : S16x1x128.Idx) :
    ∃ t : Fin cfg0.N, (cfg0.win 2).flush t = true ∧ i ∈ ((cfg0.win 2).blk t).view.set := by
  have h0 : (i 0).val < 16 := (i 0).isLt
  have h1 : (i 1).val < 1 := (i 1).isLt
  have h2 : (i 2).val < 128 := (i 2).isLt
  obtain ⟨t, ht⟩ : ∃ t : Fin cfg0.N, t.val = (i 0).val := ⟨⟨(i 0).val, by rw [show cfg0.N = 16 from N_0]; exact h0⟩, rfl⟩
  refine ⟨t, flush0_2 t, ?_⟩
  rw [mem_blk]
  obtain ⟨-, -, -, -, -, -, e0, e1, e2⟩ := block_index t
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 1 ≤ (i 1).val ∧ (i 1).val < win0_2.index t (1 : Fin 3) * 1 + 1; omega
  | ⟨2, _⟩ => show win0_2.index t (2 : Fin 3) * 128 ≤ (i 2).val ∧ (i 2).val < win0_2.index t (2 : Fin 3) * 128 + 128; omega

/-- THE OUTPUT ARRAY after the run is the masked mean. -/
theorem region_final (c : Dev nD) : (dats m 0 c).arrAt 2 cfg0.N = regionOut m c :=
  (dats m 0 c).arrAt_eq_of_cover 2 (regionOut m c) (fun t _ => flushed_eq m c t) cover

/-! ## The result after the last view -/

/-- A [16, 1, 128] array viewed as [16, 128] reads, at `(b, d)`, the entry `(b, 0, d)`. -/
theorem drop_unit (R : S16x1x128.Idx → EReal) (h : S16x1x128.ShapeCasts S16x128) (b : Fin 16) (d : Fin 128) :
    shapeCast S16x128 R h (ix2 b d) = R (ix3 b 0 d) :=
  shapeCast_apply R h (ix2 b d) (ix3 b 0 d) (by
    rw [Shape.rowMajor_val_two, Shape.rowMajor_val_three]
    show (b.val * 1 + 0) * 128 + d.val = b.val * 128 + d.val
    omega)

/-- The program's result: the region's output with its unit axis dropped. -/
theorem result_eq (c : Dev nD) :
    Pipeline.afterTail₀ cfgs (dats m) 0 (V0 m) [hostOps1] c main_v0
      = mean (m ((c : Thread nD τ).loc main_arg0)) (weights (m ((c : Thread nD τ).loc main_arg1))) := by
  unfold Pipeline.afterTail₀
  show StableHlo.after hostOps1 _ (Proc.devRef .tc main_v0) = _
  after_results
  have hA : Pipeline.withArrays (cfgs 0).spec c (V0 m c) (fun w => (dats m 0 c).arrAt w (cfgs 0).N)
      (Proc.devRef .tc main_call0_v2) = regionOut m c :=
    (Pipeline.withArrays_arr spec0 launch0.win.arr_inj c _ _ 2).trans (region_final m c)
  show shapeCast S16x128 (Pipeline.withArrays (cfgs 0).spec c (V0 m c) (fun w => (dats m 0 c).arrAt w (cfgs 0).N)
      (Proc.devRef .tc main_call0_v2)) shapeCasts_S16x1x128_S16x128 = _
  rw [hA]
  funext i
  obtain ⟨b, d, rfl⟩ : ∃ (b : Fin 16) (d : Fin 128), i = ix2 b d := ⟨i 0, i 1, eq_ix2 i⟩
  exact (drop_unit (regionOut m c) _ b d).trans rfl

/-! ## The run -/

/-- Every weakly fair execution of the program terminates with the result array at the masked mean of the values
    under the mask's weights, and the two arguments unchanged. -/
theorem run : θ_run defs (onTc (τ := τ) (main (F := Ideal))) ⟨m, fun _ => 0, ρ⟩ fun r => ∀ c : Dev nD,
      r.2.mem ((c : Thread nD τ).loc main_v0)
        = mean (m ((c : Thread nD τ).loc main_arg0)) (weights (m ((c : Thread nD τ).loc main_arg1)))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
      ⟨((h c).2 main_v0 (Pipeline.mem_restRefs_of main_v0 (by decide) (by decide))).trans (result_eq m c),
       ((h c).1 0).trans (((dats m 0 c).arrAt_in 0 rfl _).trans ((A_eq m c 0).trans (V_main_arg0 m c))),
       ((h c).2 main_arg1 (Pipeline.mem_restRefs_of main_arg1 (by decide) (by decide))).trans (W_main_arg1 m (dats m) c)⟩)
    (run_main m ρ)

end Cert.KernelIdeal.RegionValue

end
-- ==== Proof.lean ====
/-
  The masked mean over the atom axis: the kernel against its reference, over the extended reals.

  Both programs take values `x` of shape [16, 4096, 128] and a mask of shape [16, 4096], read the mask's bits as
  weights `w ∈ {0, 1}`, and return, for each batch row `b` and feature `d`,
  `(∑ l, w (b, l) · x (b, l, d)) / (∑ l, w (b, l))`.
  The kernel forms the numerator as a row-by-matrix product of the weights row with the row's values, one batch row
  per grid point, and the denominator as a lane sum of the weights row; the reference multiplies elementwise and sums
  over the atom axis. At the ideal instance both sums are sums over the 4096 atoms of the same products up to the
  order of the two factors, so the only law used is commutativity of the product on the extended reals; the
  quotient is the same operation on both sides and is applied to equal operands, so nothing is assumed about the
  weight total (a row with an empty mask included), and the finiteness of the inputs is never opened.
  The three frame claims are the generated frames (the reference's frame is its generated run with the result
  dropped); the idealization rewrote nothing, so its claim is trivial.
-/
import proofs.«169712_g33956011442265_cont_8to1_b_969_8_alg».proof.Defs
import proofs.«169712_g33956011442265_cont_8to1_b_969_8_alg».proof.Proof.Gen.Kernel
import proofs.«169712_g33956011442265_cont_8to1_b_969_8_alg».proof.Proof.Gen.Kernel.Frame
import proofs.«169712_g33956011442265_cont_8to1_b_969_8_alg».proof.Proof.Gen.KernelIdeal
import proofs.«169712_g33956011442265_cont_8to1_b_969_8_alg».proof.Proof.Gen.KernelIdeal.Frame
import proofs.«169712_g33956011442265_cont_8to1_b_969_8_alg».proof.Proof.Gen.ReferenceIdeal
import proofs.«169712_g33956011442265_cont_8to1_b_969_8_alg».proof.Proof.Gen.Pre_finite_inputs
import proofs.«169712_g33956011442265_cont_8to1_b_969_8_alg».proof.Proof.Gen.ReferenceIdeal.Run
import proofs.«169712_g33956011442265_cont_8to1_b_969_8_alg».proof.Proof.Gen.ReferenceIdeal.Read
import proofs.«169712_g33956011442265_cont_8to1_b_969_8_alg».proof.Proof.MaskedMean
import proofs.«169712_g33956011442265_cont_8to1_b_969_8_alg».proof.Proof.RefValue
import proofs.«169712_g33956011442265_cont_8to1_b_969_8_alg».proof.Proof.RegionValue
import Idealize.ShloMosaic.Adequacy
import Idealize.ShloMosaic.Init

noncomputable section

namespace Cert.Proof

open Idealize.ShloMosaic Idealize.ShloMosaic.TcCoe Idealize.SL.Sem Cert.MaskedMean

/-- The kernel as printed runs and keeps its arguments. -/
theorem frame_kernel : Cert.frame_Kernel := fun m ρ _ => Cert.Kernel.Gen.frame m ρ

/-- The idealized kernel runs and keeps its arguments. -/
theorem frame_kernelIdeal : Cert.frame_KernelIdeal := fun m ρ _ => Cert.KernelIdeal.Gen.frame m ρ

/-- The idealized reference runs and keeps its arguments: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both idealized programs end with the masked mean of the values under
    the mask's weights: the kernel by its run read as values, the reference by its run read one operation at a time. -/
theorem algebraic : Cert.algebraic_KernelIdeal_ReferenceIdeal := by
  intro m ρ m' ρ' _ hagree
  refine ⟨fun c => mean (m ((c : Thread Cert.KernelIdeal.nD Cert.KernelIdeal.τ).loc Cert.KernelIdeal.main_arg0))
      (weights (m ((c : Thread Cert.KernelIdeal.nD Cert.KernelIdeal.τ).loc Cert.KernelIdeal.main_arg1))),
    Cert.KernelIdeal.RegionValue.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v7_eq, Cert.ReferenceIdeal.RefValue.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
